-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1x1024 : Shape := ⟨2, ![1, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_arg5 : FVec F S1x1024 .f32) (main_arg6 : FVec F S1x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  main_v33

def fn {F : FTy → Type} [FloatOps F] (main_arg0 : FVec F S16384x1024 .f32) (main_arg1 : FVec F S16384x1024 .f32) (main_arg2 : FVec F S1024x1024 .f32) (main_arg3 : FVec F S1024x1024 .f32) (main_arg4 : FVec F S1x1024 .f32) (main_arg5 : FVec F S1x1024 .f32) (main_arg6 : FVec F S1x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S16384x1024 : Shape := ⟨2, ![16384, 1024]⟩
abbrev S1024x1024 : Shape := ⟨2, ![1024, 1024]⟩
abbrev S1x1024 : Shape := ⟨2, ![1, 1024]⟩
abbrev S512x1024 : Shape := ⟨2, ![512, 1024]⟩

abbrev nBuf : Space → Nat
  | .hbm => 12
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S1024x1024_S1024x1024_1_0 : S1024x1024.Transposes [1, 0] S1024x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  broadcasts_S1x1024_S512x1024 : S1x1024.Broadcasts S512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S16384x1024.size a
  hwx0_7 : ∀ i : grid0.Coords, EltTy.bits .f32 = 32 ∨ (Rect.block (s := S16384x1024) S512x1024.size (cc0_transform_7 i) (hinb0_7 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S1x1024 : Shape := ⟨2, ![1, 1024]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S1024x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .i1⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S1x1024, .f32⟩
  | .hbm, ⟨45, _⟩ => ⟨S_, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_v20 : Ref sig .tc := ⟨.hbm, 44, rfl⟩
abbrev main_cst_3 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_4 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S_S1x1024 : S_.BroadcastsInDim S1x1024 (![] : Fin 0 → Fin S1x1024.rank)
  dot_S16384x1024_S1024x1024_S16384x1024_1_0_0_1_n_n_wf : DotDims.WF S16384x1024 S1024x1024 S16384x1024 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.CellSpec.lean ====
/-
  The gated exponential-decay recurrent cell as ONE function of its seven argument arrays, entry by entry, on the
  extended reals.  For row `p` of the batch and column `q` of the state,

      r  = σ(Σ_k x[p,k]·Wa[q,k] + ba[q])            (the recurrence gate)
      i  = σ(Σ_k x[p,k]·Wx[q,k] + bx[q])            (the input gate)
      a  = exp(−(8·softplus(Λ[q]))·r)               (the decay, in (0,1] for finite data)
      out[p,q] = a·h[p,q] + sqrt(1 − a·a)·(i·x[p,q])

  with σ(z) = 1/(1 + e^(−z)) and softplus(l) = max(l,0) + log(1 + e^(−|l|)).  Both weight matrices are read along
  their ROWS: entry (p,q) contracts row `p` of `x` with row `q` of `W`, which is `x·Wᵀ` without ever forming the
  transpose.

  Below the definition: the few places where the two programs SPELL one of these scalar functions differently, each
  shown to be the same extended real.  None of them needs the data to be finite: they are the unit laws of `0`,
  the definition of σ, and the fact that `d ≠ d` never holds.
-/
import Idealize.ShloMosaic.PureOps.Ideal
import Idealize.ShloMosaic.PureOps.Ideal.Laws
import Idealize.ShloMosaic.Lib.ValueIdx

noncomputable section

namespace Cert.Cell

open Idealize.ShloMosaic Idealize.ShloMosaic.ValueIdx

/-- The batch-by-state arrays `x`, `h` and the result: 16384 rows of 1024. -/
abbrev Rows : Shape := ⟨2, ![16384, 1024]⟩
/-- A weight matrix: 1024 by 1024. -/
abbrev Sq : Shape := ⟨2, ![1024, 1024]⟩
/-- A bias or the decay parameter: one row of 1024. -/
abbrev Row1 : Shape := ⟨2, ![1, 1024]⟩

/-- `softplus l = max(l, 0) + log(1 + e^(−|l|))`, the overflow-free form of `log(1 + e^l)`; `|l|` is `max l (−l)`. -/
def softplus (l : EReal) : EReal := max l 0 + Ideal.log1p (Ideal.exp (-(max l (-l))))

/-- One entry of the cell from what it depends on: the row of `x` (as a function of the contracted position), the
    two weight rows, the two biases and the decay parameter of its column, and the entries of `h` and `x` at it.
    The scale `8` stays the float word both programs spell. -/
def cellAt (xr war wxr : Fin 1024 → EReal) (ba bx lam h x : EReal) : EReal :=
  let a := Ideal.exp (-(Ideal.ofBits .f32 0x41000000#32 * softplus lam) * Ideal.logistic ((∑ k : Fin 1024, xr k * war k) + ba))
  a * h + Ideal.sqrt (1 - a * a) * (Ideal.logistic ((∑ k : Fin 1024, xr k * wxr k) + bx) * x)

/-- The whole result array: entry `i = (p, q)` reads row `p` of `x`, row `q` of each weight matrix, column `q` of the
    three one-row arrays, and `h`, `x` at `i`. -/
def cell (x h : Rows.Idx → EReal) (wa wx : Sq.Idx → EReal) (ba bx lam : Row1.Idx → EReal) : Rows.Idx → EReal := fun i =>
  cellAt (fun k => x (ix2 (i 0) k)) (fun k => wa (ix2 (i 1) k)) (fun k => wx (ix2 (i 1) k))
    (ba (ix2 0 (i 1))) (bx (ix2 0 (i 1))) (lam (ix2 0 (i 1))) (h i) (x i)

/-! ## One function, two spellings -/

/-- The float word `1.0` denotes the extended real `1`. -/
theorem one_word : Ideal.ofBits .f32 0x3F800000#32 = 1 := by
  simp [Ideal.ofBits, Ideal.ieee, -EReal.coe_mul]; norm_num

/-- A value differs from itself nowhere on the extended reals: the test `d ≠ d`, by which floating-point code asks
    "is `d` a NaN", is never taken here — whether it is asked as ordered-and-different or as unordered-or-different. -/
theorem self_ne_ordered (d : EReal) : Ideal.cmp .one d d = 0#1 := by simp [Ideal.cmp]
theorem self_ne_unordered (d : EReal) : Ideal.cmp .une d d = 0#1 := by simp [Ideal.cmp]

/-- Subtracting from the word `0.0` is negation. -/
theorem zero_word_sub (y : EReal) : Ideal.ofBits .f32 0x00000000#32 - y = -y := by
  rw [Ideal.ofBits_zero_f32, zero_sub]

/-- σ written out with the word `1.0`, a host negation and a host quotient is σ: `Ideal.logistic z` IS
    `1 / (1 + e^(−z))`, including its values `0` at `⊥` and `1` at `⊤`. -/
theorem logistic_spelled (z : EReal) :
    Ideal.div (Ideal.ofBits .f32 0x3F800000#32) (Ideal.ofBits .f32 0x3F800000#32 + Ideal.exp (-z)) = Ideal.logistic z := by
  rw [one_word]; rfl

/-- softplus as jax's `logaddexp(l, 0)` spells it — guard `d ≠ d` on `d = l − 0`, the guarded branch `l + 0`, else
    `max(l,0) + log1p(exp(−|d|))` — with the negation a host negation and the guard unordered: it is `softplus l`. -/
theorem softplus_host (l : EReal) :
    Scalar.select (Ideal.cmp .une (l - Ideal.ofBits .f32 0x00000000#32) (l - Ideal.ofBits .f32 0x00000000#32))
      (l + Ideal.ofBits .f32 0x00000000#32)
      (max l (Ideal.ofBits .f32 0x00000000#32)
        + Ideal.log1p (Ideal.exp (-(max (l - Ideal.ofBits .f32 0x00000000#32) (-(l - Ideal.ofBits .f32 0x00000000#32))))))
    = softplus l := by
  rw [self_ne_unordered, ValueIdx.select_zero, Ideal.ofBits_zero_f32, sub_zero]; rfl

/-- The same with the negation spelled `0 − ·` and the guard ordered, as the kernel's lowering has it. -/
theorem softplus_kernel (l : EReal) :
    Scalar.select (Ideal.cmp .one (l - Ideal.ofBits .f32 0x00000000#32) (l - Ideal.ofBits .f32 0x00000000#32))
      (l + Ideal.ofBits .f32 0x00000000#32)
      (max l (Ideal.ofBits .f32 0x00000000#32)
        + Ideal.log1p (Ideal.exp (Ideal.ofBits .f32 0x00000000#32
            - max (l - Ideal.ofBits .f32 0x00000000#32) (-(l - Ideal.ofBits .f32 0x00000000#32)))))
    = softplus l := by
  rw [self_ne_ordered, ValueIdx.select_zero, zero_word_sub, Ideal.ofBits_zero_f32, sub_zero]; rfl

end Cert.Cell

end
-- ==== Proof.RefCell.lean ====
/-
  The reference computes the cell.  Its program is a straight line of whole-array operations; read at one entry
  `i = (p, q)` every one of them is an operation on the operands' entries, except the two matrix products, which
  are sums over the contracted position, and the layout steps (transpose, broadcast), which only move the index.
  Following the index through them: the product with the transposed weights reads `W` at `(q, k)`, row `q` of
  the matrix as stored; a broadcast one-row array is read at column `q`.  What is left is the scalar formula of
  the specification, up to the spellings settled there (σ written out, softplus through jax's guarded form).
-/
import proofs.«140260_j40939628265850_1_alg».proof.Proof.Gen.ReferenceIdeal.Read
import proofs.«140260_j40939628265850_1_alg».proof.Proof.CellSpec

noncomputable section

namespace Cert.Cell.Ref

open Cert.ReferenceIdeal Cert.ReferenceIdeal.Read Idealize.ShloMosaic Idealize.ShloMosaic.ValueIdx

/-! ## Where each layout step sends the index -/

/-- The left operand of the gate product at `(p, q)`, contracted position `k`: `x` at `(p, k)`. -/
theorem left_r (i : S16384x1024.Idx) (k : Fin 1024) : lidx_main_v1 i k = ix2 (i 0) k :=
  funext fun a => by match a with | ⟨0, _⟩ => rfl | ⟨1, _⟩ => rfl
/-- Its right operand is the transpose of `Wa` at `(k, q)`, that is `Wa` at `(q, k)`. -/
theorem right_r (i : S16384x1024.Idx) (k : Fin 1024) : idx_main_v0 (ridx_main_v1 i k) = ix2 (i 1) k :=
  funext fun a => by match a with | ⟨0, _⟩ => rfl | ⟨1, _⟩ => rfl
/-- The same two for the input-gate product with `Wx`. -/
theorem left_i (i : S16384x1024.Idx) (k : Fin 1024) : lidx_main_v11 i k = ix2 (i 0) k :=
  funext fun a => by match a with | ⟨0, _⟩ => rfl | ⟨1, _⟩ => rfl
theorem right_i (i : S16384x1024.Idx) (k : Fin 1024) : idx_main_v10 (ridx_main_v11 i k) = ix2 (i 1) k :=
  funext fun a => by match a with | ⟨0, _⟩ => rfl | ⟨1, _⟩ => rfl
/-- A one-row array broadcast down the rows is read at `(0, q)`: the two biases and the decay parameter. -/
theorem col_ba (i : S16384x1024.Idx) : idx_main_v2 i = ix2 0 (i 1) :=
  funext fun a => by match a with | ⟨0, _⟩ => rfl | ⟨1, _⟩ => rfl
theorem col_bx (i : S16384x1024.Idx) : idx_main_v12 i = ix2 0 (i 1) :=
  funext fun a => by match a with | ⟨0, _⟩ => rfl | ⟨1, _⟩ => rfl
theorem col_lam (i : S16384x1024.Idx) : idx_main_v24 i = ix2 0 (i 1) :=
  funext fun a => by match a with | ⟨0, _⟩ => rfl | ⟨1, _⟩ => rfl

/-! ## The last stage is the cell -/

theorem stage_eq_cell (x0 x1 : S16384x1024.Idx → EReal) (x2 x3 : S1024x1024.Idx → EReal) (x4 x5 x6 : S1x1024.Idx → EReal) :
    val_main_v34 (F := Ideal) x0 x1 x2 x3 x4 x5 x6 = Cert.Cell.cell x0 x1 x2 x3 x4 x5 x6 := by
  funext i
  simp only [val_main_v34_apply, val_main_v33_apply, val_main_v32_apply, val_main_v31_apply, val_main_v30_apply,
    val_main_v29_apply, val_main_cst_4_apply, val_main_v28_apply, val_main_v27_apply, val_main_v26_apply,
    val_main_v25_apply, val_main_v24_apply, val_main_v23_apply, val_main_v22_apply, val_main_v21_apply,
    val_main_cst_3_apply, val_main_v20_apply, val_main_call0_v11_apply, val_main_call0_v10_apply,
    val_main_call0_v9_apply, val_main_call0_v8_apply, val_main_call0_v7_apply, val_main_call0_v6_apply,
    val_main_call0_v5_apply, val_main_call0_v4_apply, val_main_call0_v3_apply, val_main_call0_v2_apply,
    val_main_call0_v1_apply, val_main_call0_v0_apply, val_main_call0_cst_apply,
    val_main_v19_apply, val_main_v18_apply, val_main_cst_2_apply, val_main_v17_apply, val_main_v16_apply,
    val_main_cst_1_apply, val_main_v15_apply, val_main_v14_apply, val_main_v13_apply, val_main_v12_apply,
    val_main_v11_apply, val_main_v10_apply,
    val_main_v9_apply, val_main_v8_apply, val_main_cst_0_apply, val_main_v7_apply, val_main_v6_apply,
    val_main_cst_apply, val_main_v5_apply, val_main_v4_apply, val_main_v3_apply, val_main_v2_apply,
    val_main_v1_apply, val_main_v0_apply]
  simp only [left_r, right_r, left_i, right_i, col_ba, col_bx, col_lam,
    Ideal.addf_def, Ideal.subf_def, Ideal.mulf_def, Ideal.hostDivf_def, Ideal.hostNegf_def, Ideal.negf_def,
    Ideal.hostUnary_exp_def, Ideal.hostUnary_log1p_def, Ideal.hostUnary_sqrt_def, Ideal.hostAbsf_def, Ideal.absf_def,
    Ideal.maximumf_def, Ideal.cmpf_def, Ideal.ofBits_def, logistic_spelled, softplus_host]
  simp only [one_word]
  rfl

end Cert.Cell.Ref

end
-- ==== Proof.BodyCell.lean ====
/-
  One grid step of the kernel computes the cell on a block of 512 rows.  The body loads the block of `x` and of
  `h`, both transposed weight matrices whole, and the three one-row arrays; it forms the two gate products on the
  matrix unit, adds the biases, applies σ, builds the decay from the softplus of `Λ`, and combines.  Read at one
  entry `(r, q)` of the block:

    * a matrix product into a zero accumulator is the plain sum over the contracted position of
      `x[r,k] · Wᵀ[k,q]`; the narrowing of the operands to bf16 changes nothing on the extended reals;
    * a one-row array broadcast down the 512 rows is read at `(0, q)`;
    * everything else acts entry by entry.

  So the entry is the specification's `cellAt` of row `r` of the `x` block, COLUMN `q` of each transposed matrix, and
  column `q` of the one-row arrays — up to the spellings settled with the specification (negation as `0 − ·`, jax's
  guarded softplus).
-/
import proofs.«140260_j40939628265850_1_alg».proof.Proof.Gen.KernelIdeal.Skeleton
import proofs.«140260_j40939628265850_1_alg».proof.Proof.CellSpec
import Idealize.ShloMosaic.Lib.Pipeline.Value
import Idealize.ShloMosaic.Lib.ValueIdx
import Idealize.ShloMosaic.PureOps.Ideal.Laws

noncomputable section

namespace Cert.Cell.Body

open Cert.KernelIdeal Cert.KernelIdeal.Gen Idealize.ShloMosaic Idealize.ShloMosaic.ValueIdx

/-! ## The matrix unit's operand positions -/

/-- Output entry `j`, contracted position `κ`: the left operand is read in row `j 0` … -/
theorem lhs_row (j : S512x1024.Idx) (κ : dot_S512x1024_S1024x1024_S512x1024_1_0_0_1_n_n.contr.Idx) :
    (dot_S512x1024_S1024x1024_S512x1024_1_0_0_1_n_n.lhsIdx j κ 0).val = (j 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- … at the contracted position; -/
theorem lhs_contr (j : S512x1024.Idx) (κ : dot_S512x1024_S1024x1024_S512x1024_1_0_0_1_n_n.contr.Idx) :
    (dot_S512x1024_S1024x1024_S512x1024_1_0_0_1_n_n.lhsIdx j κ 1).val = (κ ⟨0, by decide⟩).val :=
  dot_S512x1024_S1024x1024_S512x1024_1_0_0_1_n_n.lhsIdx_val_of_single rfl j κ
/-- the right operand at the contracted position … -/
theorem rhs_contr (j : S512x1024.Idx) (κ : dot_S512x1024_S1024x1024_S512x1024_1_0_0_1_n_n.contr.Idx) :
    (dot_S512x1024_S1024x1024_S512x1024_1_0_0_1_n_n.rhsIdx j κ 0).val = (κ ⟨0, by decide⟩).val :=
  dot_S512x1024_S1024x1024_S512x1024_1_0_0_1_n_n.rhsIdx_val_of_single rfl j κ
/-- … in column `j 1`. -/
theorem rhs_col (j : S512x1024.Idx) (κ : dot_S512x1024_S1024x1024_S512x1024_1_0_0_1_n_n.contr.Idx) :
    (dot_S512x1024_S1024x1024_S512x1024_1_0_0_1_n_n.rhsIdx j κ 1).val = (j 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- A gate product at entry `(r, q)`: row `r` of the `x` block against column `q` of the transposed weights.  The
    accumulator is the zero splat, the narrowing of `x` and the same-shape cast of the weights are the identity. -/
theorem product_at (xb : S512x1024.Idx → EReal) (w : FVec Ideal S1024x1024 .bf16) (r : Fin 512) (q : Fin 1024) :
    matmul dot_S512x1024_S1024x1024_S512x1024_1_0_0_1_n_n none (k0_pay2 (F := Ideal) xb)
        (shapeCast S1024x1024 w shapeCasts_S1024x1024_S1024x1024) (constant S512x1024 .f32 0x00000000#32) (ix2 r q)
      = ∑ k : Fin 1024, xb (ix2 r k) * w (ix2 k q) := by
  rw [shapeCast_self]
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r q) ((contrEquiv1 dot_S512x1024_S1024x1024_S512x1024_1_0_0_1_n_n 1024 rfl rfl).symm k) = ix2 r k := funext fun a => Fin.ext (by
    match a with
    | ⟨0, _⟩ => exact lhs_row _ _
    | ⟨1, _⟩ => exact (lhs_contr _ _).trans hk)
  have er : dot_S512x1024_S1024x1024_S512x1024_1_0_0_1_n_n.rhsIdx (ix2 r q) ((contrEquiv1 dot_S512x1024_S1024x1024_S512x1024_1_0_0_1_n_n 1024 rfl rfl).symm k) = ix2 k q := funext fun a => Fin.ext (by
    match a with
    | ⟨0, _⟩ => exact (rhs_contr _ _).trans hk
    | ⟨1, _⟩ => exact rhs_col _ _)
  rw [el, er]
  rfl

/-- A one-row array broadcast down the block's rows, at `(r, q)`, is the array at `(0, q)`. -/
theorem row_at (v : S1x1024.Idx → EReal) (r : Fin 512) (q : Fin 1024) :
    broadcastTo S512x1024 v broadcasts_S1x1024_S512x1024 (ix2 r q) = v (ix2 0 q) :=
  broadcastTo_apply v broadcasts_S1x1024_S512x1024 (ix2 r q) (ix2 0 q) (fun a => by
    match a with
    | ⟨0, _⟩ => show (0 : Nat) = if (1 : Nat) = 1 then 0 else r.val; rw [if_pos rfl]
    | ⟨1, _⟩ => show q.val = if (1024 : Nat) = 1 then 0 else q.val; rw [if_neg (by decide)])

/-! ## The stored block at an entry -/

theorem payload_at (xb hb : S512x1024.Idx → EReal) (waT wxT : S1024x1024.Idx → EReal) (ba bx lam : S1x1024.Idx → EReal)
    (r : Fin 512) (q : Fin 1024) :
    k0_pay1 (F := Ideal) xb hb (k0_pay3 (F := Ideal) xb wxT bx) (k0_pay4 (F := Ideal) xb waT ba lam) (ix2 r q)
      = Cert.Cell.cellAt (fun k => xb (ix2 r k)) (fun k => waT (ix2 k q)) (fun k => wxT (ix2 k q))
          (ba (ix2 0 q)) (bx (ix2 0 q)) (lam (ix2 0 q)) (hb (ix2 r q)) (xb (ix2 r q)) := by
  unfold k0_pay1 k0_pay3 k0_pay4
  simp only [mulf, addf, subf, exp, log1p, sqrt, logistic, absf, maximumf, cmpf, select, broadcast, row_at, product_at]
  simp only [Ideal.addf_def, Ideal.subf_def, Ideal.mulf_def, Ideal.exp_def, Ideal.log1p_def, Ideal.sqrt_def,
    Ideal.logistic_def, Ideal.absf_def, Ideal.maximumf_def, Ideal.cmpf_def, Ideal.ofBits_def, softplus_kernel]
  simp only [zero_word_sub, one_word]
  rfl

end Cert.Cell.Body

end
-- ==== Proof.CellArray.lean ====
/-
  From blocks to the array.  The kernel sweeps the 16384 rows in 32 blocks of 512: at step `t` it reads rows
  `512·t … 512·t + 511` of `x` and of `h`, the two transposed bf16 weight matrices whole, the three one-row arrays
  whole, and writes the same rows of the result.

  * The weight operands are made by the host before the sweep: `Wᵀ` narrowed to bf16.  On the extended reals
    the narrowing is the identity, so the operand at `(k, q)` is `W` at `(q, k)`: column `q` of the operand is row
    `q` of the matrix as passed.
  * A block's entry `(r, q)` sits at row `512·t + r`, column `q` of its array; the whole-array operands are read
    where they stand.  With the body's value at an entry, what step `t` writes back is block `t` of the
    specification's `cell` of the seven arguments.
  * The 32 blocks cover every row (row `p` lies in block `p / 512`), so after the sweep the result array IS `cell`
    of the arguments.
-/
import proofs.«140260_j40939628265850_1_alg».proof.Proof.Gen.KernelIdeal.Value
import proofs.«140260_j40939628265850_1_alg».proof.Proof.BodyCell
import Idealize.ShloMosaic.Lib.StableHlo.Run
import Idealize.ShloMosaic.Lib.Pipeline.Value

noncomputable section

namespace Cert.Cell.Sweep

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- Every access of the body starts at the origin of its buffer. -/
theorem origin : (![0, 0] : Fin 2 → Nat) = fun _ => 0 := funext fun a => by fin_cases a <;> rfl

/-! ## The weight operands the host prepares -/

/-- The first weight operand is `Waᵀ` narrowed to bf16. -/
theorem waT_eq (c : Dev nD) : @Eq (S1024x1024.Idx → EReal) (V m c main_v1)
    (truncf (F := Ideal) .bf16 (transpose S1024x1024 [1, 0] (m ((c : Thread nD τ).loc main_arg2)) Gen.transposes_S1024x1024_S1024x1024_1_0) Gen.bitsLt_bf16_f32) := by
  dsimp only [Gen.V, Gen.hostOps0]; after_results

/-- The second is `Wxᵀ` narrowed to bf16. -/
theorem wxT_eq (c : Dev nD) : @Eq (S1024x1024.Idx → EReal) (V m c main_v3)
    (truncf (F := Ideal) .bf16 (transpose S1024x1024 [1, 0] (m ((c : Thread nD τ).loc main_arg3)) Gen.transposes_S1024x1024_S1024x1024_1_0) Gen.bitsLt_bf16_f32) := by
  dsimp only [Gen.V, Gen.hostOps0]; after_results

/-- Entry `(k, q)` of the first operand is `Wa` at `(q, k)`. -/
theorem waT_at (c : Dev nD) (k q : Fin 1024) :
    (V m c main_v1 : S1024x1024.Idx → EReal) (ix2 k q) = m ((c : Thread nD τ).loc main_arg2) (ix2 q k) := by
  rw [waT_eq]
  exact transpose_apply [1, 0] _ Gen.transposes_S1024x1024_S1024x1024_1_0 (ix2 k q) (ix2 q k) (fun b => match b with
    | ⟨0, _⟩ => rfl
    | ⟨1, _⟩ => rfl)

/-- Entry `(k, q)` of the second is `Wx` at `(q, k)`. -/
theorem wxT_at (c : Dev nD) (k q : Fin 1024) :
    (V m c main_v3 : S1024x1024.Idx → EReal) (ix2 k q) = m ((c : Thread nD τ).loc main_arg3) (ix2 q k) := by
  rw [wxT_eq]
  exact transpose_apply [1, 0] _ Gen.transposes_S1024x1024_S1024x1024_1_0 (ix2 k q) (ix2 q k) (fun b => match b with
    | ⟨0, _⟩ => rfl
    | ⟨1, _⟩ => rfl)

/-! ## Where step `t`'s blocks sit -/

/-- Decided over the 32 steps: the row-blocked operands (`x`, `h`, the result) are at block row `t`, block column
    `0`; the whole-array operands at block `(0, 0)`. -/
theorem block_positions : ∀ t : Fin cfg0.N,
    win0_7.index t (0 : Fin 2) = t.val ∧ win0_7.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- `cellAt` depends on its rows only through their entries. -/
theorem cellAt_congr {xr xr' war war' wxr wxr' : Fin 1024 → EReal} {ba ba' bx bx' lam lam' h h' x x' : EReal}
    (h1 : ∀ k, xr k = xr' k) (h2 : ∀ k, war k = war' k) (h3 : ∀ k, wxr k = wxr' k)
    (h4 : ba = ba') (h5 : bx = bx') (h6 : lam = lam') (h7 : h = h') (h8 : x = x') :
    Cert.Cell.cellAt xr war wxr ba bx lam h x = Cert.Cell.cellAt xr' war' wxr' ba' bx' lam' h' x' := by
  obtain rfl := funext h1
  obtain rfl := funext h2
  obtain rfl := funext h3
  subst h4 h5 h6 h7 h8
  rfl

/-! ## What a step writes back -/

/-- Step `t` writes back block `t` of the cell of the seven arguments. -/
theorem flushed_cell (c : Dev nD) (t : Fin cfg0.N) :
    (dats m 0 c).flushed 7 t = ((cfg0.win 7).blk t).view.read (Elt Ideal)
      (Cert.Cell.cell (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6))) := by
  rw [Cert.KernelIdeal.Value.flushed7]
  unfold out0_7
  rw [View.canon_unit_zero origin]
  simp only [View.ld_unit_zero (S := S512x1024) origin, View.ld_unit_zero (S := S1024x1024) origin, View.ld_unit_zero (S := S1x1024) origin]
  obtain ⟨p70, p71, p00, p01, p10, p11, p20, p21, p30, p31, p40, p41, p50, p51, p60, p61⟩ := block_positions t
  funext y
  obtain ⟨r, q, rfl⟩ : ∃ (r : Fin 512) (q : Fin 1024), y = ix2 r q := ⟨y 0, y 1, eq_ix2 y⟩
  -- the entry of the result array that entry (r, q) of step t's block is
  let e : S16384x1024.Idx := ((cfg0.win 7).blk t).view.emb (ix2 r q)
  show k0_pay1 (F := Ideal) (iblk m c 0 t) (iblk m c 1 t) (k0_pay3 (F := Ideal) (iblk m c 0 t) (iblk m c 3 t) (iblk m c 5 t))
      (k0_pay4 (F := Ideal) (iblk m c 0 t) (iblk m c 2 t) (iblk m c 4 t) (iblk m c 6 t)) (ix2 r q)
    = Cert.Cell.cell (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) e
  refine (Cert.Cell.Body.payload_at (iblk m c 0 t) (iblk m c 1 t) (iblk m c 2 t) (iblk m c 3 t) (iblk m c 4 t) (iblk m c 5 t) (iblk m c 6 t) r q).trans ?_
  have he0 : (e 0).val = t.val * 512 + r.val := by
    show win0_7.index t (0 : Fin 2) * 512 + 1 * r.val = _; omega
  have he1 : (e 1).val = q.val := by
    show win0_7.index t (1 : Fin 2) * 1024 + 1 * q.val = _; omega
  -- row r of the x block is row 512·t + r of x
  have hx : ∀ k : Fin 1024, iblk m c 0 t (ix2 r k) = m ((c : Thread nD τ).loc main_arg0) (ix2 (e 0) k) := fun k => by
    show V m c main_arg0 (((cfg0.win 0).blk t).view.emb (ix2 r k)) = _
    rw [V_main_arg0]
    refine congrArg _ (funext fun a => Fin.ext ?_)
    match a with
    | ⟨0, _⟩ => show win0_0.index t (0 : Fin 2) * 512 + 1 * r.val = (e 0).val; omega
    | ⟨1, _⟩ => show win0_0.index t (1 : Fin 2) * 1024 + 1 * k.val = k.val; omega
  -- column q of each weight operand is row q of the matrix
  have hwa : ∀ k : Fin 1024, iblk m c 2 t (ix2 k q) = m ((c : Thread nD τ).loc main_arg2) (ix2 (e 1) k) := fun k => by
    show V m c main_v1 (((cfg0.win 2).blk t).view.emb (ix2 k q)) = _
    have hi : ((cfg0.win 2).blk t).view.emb (ix2 k q) = ix2 k (e 1) := funext fun a => Fin.ext (by
      match a with
      | ⟨0, _⟩ => show win0_2.index t (0 : Fin 2) * 1024 + 1 * k.val = k.val; omega
      | ⟨1, _⟩ => show win0_2.index t (1 : Fin 2) * 1024 + 1 * q.val = (e 1).val; omega)
    rw [hi]; exact waT_at m c k (e 1)
  have hwx : ∀ k : Fin 1024, iblk m c 3 t (ix2 k q) = m ((c : Thread nD τ).loc main_arg3) (ix2 (e 1) k) := fun k => by
    show V m c main_v3 (((cfg0.win 3).blk t).view.emb (ix2 k q)) = _
    have hi : ((cfg0.win 3).blk t).view.emb (ix2 k q) = ix2 k (e 1) := funext fun a => Fin.ext (by
      match a with
      | ⟨0, _⟩ => show win0_3.index t (0 : Fin 2) * 1024 + 1 * k.val = k.val; omega
      | ⟨1, _⟩ => show win0_3.index t (1 : Fin 2) * 1024 + 1 * q.val = (e 1).val; omega)
    rw [hi]; exact wxT_at m c k (e 1)
  -- the one-row arrays are read at column q
  have hba : iblk m c 4 t (ix2 0 q) = m ((c : Thread nD τ).loc main_arg4) (ix2 0 (e 1)) := by
    show V m c main_arg4 (((cfg0.win 4).blk t).view.emb (ix2 0 q)) = _
    rw [V_main_arg4]
    refine congrArg _ (funext fun a => Fin.ext ?_)
    match a with
    | ⟨0, _⟩ => show win0_4.index t (0 : Fin 2) * 1 + 1 * 0 = 0; omega
    | ⟨1, _⟩ => show win0_4.index t (1 : Fin 2) * 1024 + 1 * q.val = (e 1).val; omega
  have hbx : iblk m c 5 t (ix2 0 q) = m ((c : Thread nD τ).loc main_arg5) (ix2 0 (e 1)) := by
    show V m c main_arg5 (((cfg0.win 5).blk t).view.emb (ix2 0 q)) = _
    rw [V_main_arg5]
    refine congrArg _ (funext fun a => Fin.ext ?_)
    match a with
    | ⟨0, _⟩ => show win0_5.index t (0 : Fin 2) * 1 + 1 * 0 = 0; omega
    | ⟨1, _⟩ => show win0_5.index t (1 : Fin 2) * 1024 + 1 * q.val = (e 1).val; omega
  have hlam : iblk m c 6 t (ix2 0 q) = m ((c : Thread nD τ).loc main_arg6) (ix2 0 (e 1)) := by
    show V m c main_arg6 (((cfg0.win 6).blk t).view.emb (ix2 0 q)) = _
    rw [V_main_arg6]
    refine congrArg _ (funext fun a => Fin.ext ?_)
    match a with
    | ⟨0, _⟩ => show win0_6.index t (0 : Fin 2) * 1 + 1 * 0 = 0; omega
    | ⟨1, _⟩ => show win0_6.index t (1 : Fin 2) * 1024 + 1 * q.val = (e 1).val; omega
  -- the entries of h and x themselves
  have hh : iblk m c 1 t (ix2 r q) = m ((c : Thread nD τ).loc main_arg1) e := by
    show V m c main_arg1 (((cfg0.win 1).blk t).view.emb (ix2 r q)) = _
    rw [V_main_arg1]
    refine congrArg _ (funext fun a => Fin.ext ?_)
    match a with
    | ⟨0, _⟩ => show win0_1.index t (0 : Fin 2) * 512 + 1 * r.val = (e 0).val; omega
    | ⟨1, _⟩ => show win0_1.index t (1 : Fin 2) * 1024 + 1 * q.val = (e 1).val; omega
  have hxx : iblk m c 0 t (ix2 r q) = m ((c : Thread nD τ).loc main_arg0) e := by
    show V m c main_arg0 (((cfg0.win 0).blk t).view.emb (ix2 r q)) = _
    rw [V_main_arg0]
    refine congrArg _ (funext fun a => Fin.ext ?_)
    match a with
    | ⟨0, _⟩ => show win0_0.index t (0 : Fin 2) * 512 + 1 * r.val = (e 0).val; omega
    | ⟨1, _⟩ => show win0_0.index t (1 : Fin 2) * 1024 + 1 * q.val = (e 1).val; omega
  exact cellAt_congr hx hwa hwx hba hbx hlam hh hxx

/-! ## The blocks cover the array -/

/-- An entry lies in step `t`'s block iff each coordinate lies in the block's range on its axis. -/
theorem mem_block (t : Fin cfg0.N) (i : S16384x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v4).slice (win0_7.rect t)).set ↔ _
  rw [View.set_slice_whole, Rect.mem_set_unit]
  exact Iff.rfl

/-- Row `p` lies in block `p / 512`; every step writes its block back. -/
theorem covered (i : S16384x1024.Idx) :
    ∃ t : Fin cfg0.N, (cfg0.win 7).flush t = true ∧ i ∈ ((cfg0.win 7).blk t).view.set := by
  have h0 : (i 0).val < 16384 := (i 0).isLt
  have h1 : (i 1).val < 1024 := (i 1).isLt
  have hN : cfg0.N = 32 := rfl
  let t : Fin cfg0.N := ⟨(i 0).val / 512, by omega⟩
  obtain ⟨p70, p71, -⟩ := block_positions t
  have ht : t.val = (i 0).val / 512 := rfl
  refine ⟨t, flush0_7 t, ?_⟩
  rw [mem_block]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 1024 ≤ (i 1).val ∧ (i 1).val < win0_7.index t (1 : Fin 2) * 1024 + 1024; omega

/-! ## The result array, and the run -/

/-- After the sweep the result array is the cell of the seven arguments. -/
theorem final (c : Dev nD) : (dats m 0 c).arrAt 7 cfg0.N
    = Cert.Cell.cell (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) :=
  (dats m 0 c).arrAt_eq_of_cover 7 _ (fun t _ => flushed_cell m c t) covered

/-- Every weakly fair execution of the kernel program ends with the result array at the cell of the arguments and
    the arguments as they were. -/
theorem run : θ_run defs (onTc (τ := τ) (main (F := Ideal))) ⟨m, fun _ => 0, ρ⟩ fun r => ∀ c : Dev nD,
      r.2.mem ((c : Thread nD τ).loc main_v4)
        = Cert.Cell.cell (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
            (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.Cell.Sweep

end
-- ==== Proof.lean ====
/-
  The gated exponential-decay recurrent cell: the Pallas kernel against its jnp reference, over the extended reals.

  Both programs compute, for every row `p` of the batch and column `q` of the state,

      out[p,q] = a·h[p,q] + sqrt(1 − a·a)·(i·x[p,q]),     a = exp(−(8·softplus(Λ[q]))·r),
      r = σ(Σ_k x[p,k]·Wa[q,k] + ba[q]),                   i = σ(Σ_k x[p,k]·Wx[q,k] + bx[q]).

  The reference forms `x·Waᵀ` and `x·Wxᵀ` whole, writes σ out as `1/(1 + e^(−z))`, and takes softplus through jax's
  guarded `logaddexp`.  The kernel transposes the weights and narrows them to bf16 on the host, then sweeps the
  rows in 32 blocks of 512, each step running both products on the matrix unit against the narrowed block of
  `x`, with σ one operation and every negation spelled `0 − ·`.  On the extended reals narrowing is the identity, a
  product into a zero accumulator is the plain sum, σ is its own expansion, and `d ≠ d` never holds; so the two
  are one function of the seven arrays, `Cert.Cell.cell` (Proof/CellSpec.lean), entry by entry.  No step uses that
  the inputs are finite: only re-indexing of a finite sum and the unit laws of `0`.

    Proof/CellSpec.lean   the function, and the few scalar spellings that differ between the programs
    Proof/RefCell.lean    the reference's last stage is `cell`
    Proof/BodyCell.lean   one entry of the block a kernel step stores is `cellAt` of the step's blocks
    Proof/CellArray.lean  a step writes block `t` of `cell`; the blocks cover the array; the kernel's run

  Nothing of the kernel was rewritten in passing to the extended reals, so there is nothing to preserve.
-/
import proofs.«140260_j40939628265850_1_alg».proof.Defs
import proofs.«140260_j40939628265850_1_alg».proof.Proof.Gen.Kernel
import proofs.«140260_j40939628265850_1_alg».proof.Proof.Gen.Kernel.Skeleton
import proofs.«140260_j40939628265850_1_alg».proof.Proof.Gen.Kernel.Launch
import proofs.«140260_j40939628265850_1_alg».proof.Proof.Gen.Kernel.Points
import proofs.«140260_j40939628265850_1_alg».proof.Proof.Gen.Kernel.Frame
import proofs.«140260_j40939628265850_1_alg».proof.Proof.Gen.KernelIdeal
import proofs.«140260_j40939628265850_1_alg».proof.Proof.Gen.KernelIdeal.Skeleton
import proofs.«140260_j40939628265850_1_alg».proof.Proof.Gen.KernelIdeal.Launch
import proofs.«140260_j40939628265850_1_alg».proof.Proof.Gen.KernelIdeal.Points
import proofs.«140260_j40939628265850_1_alg».proof.Proof.Gen.KernelIdeal.Frame
import proofs.«140260_j40939628265850_1_alg».proof.Proof.Gen.ReferenceIdeal
import proofs.«140260_j40939628265850_1_alg».proof.Proof.Gen.Pre_finite_inputs
import proofs.«140260_j40939628265850_1_alg».proof.Proof.Gen.KernelIdeal.Value
import proofs.«140260_j40939628265850_1_alg».proof.Proof.Gen.ReferenceIdeal.Run
import proofs.«140260_j40939628265850_1_alg».proof.Proof.Gen.ReferenceIdeal.Read
import proofs.«140260_j40939628265850_1_alg».proof.Proof.RefCell
import proofs.«140260_j40939628265850_1_alg».proof.Proof.CellArray
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals, so there is nothing to preserve. -/
theorem preserves : Cert.preserves_Kernel_KernelIdeal := trivial

/-- From memories that agree on the seven arguments both programs end with the result array at `cell` of those
    arguments: the kernel by its sweep, the reference by its last stage. -/
theorem algebraic : Cert.algebraic_KernelIdeal_ReferenceIdeal := by
  intro m ρ m' ρ' _ hagree
  refine ⟨_, Cert.Cell.Sweep.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.Cell.Ref.stage_eq_cell]
  obtain ⟨a0, a1, a2, a3, a4, a5, a6⟩ := hagree c
  rw [a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
